-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S256x2 .f32) (main_arg10 : FVec F S2 .f32) (main_v33 : IVec S_ 1) : IVec S_ 1 :=
  let main_v34 : FVec F S256x2 .f32 := Host.absf main_arg9
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128 .f32) (main_arg9 : FVec F S256x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S10000x128 .f32) (main_arg1 : IVec S640000 32) (main_arg2 : IVec S640000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S256x2 .f32) (main_arg10 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S1x128 : Shape := ⟨2, ![1, 128]⟩
abbrev S2000x128 : Shape := ⟨2, ![2000, 128]⟩
abbrev S128x2 : Shape := ⟨2, ![128, 2]⟩
abbrev S1x2 : Shape := ⟨2, ![1, 2]⟩
abbrev S640000x2 : Shape := ⟨2, ![640000, 2]⟩
abbrev S8000x128 : Shape := ⟨2, ![8000, 128]⟩
abbrev S8000x2 : Shape := ⟨2, ![8000, 2]⟩

abbrev nBuf : Space → Nat
  | .hbm => 80
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S256x2, .f32⟩
  | .hbm, ⟨10, _⟩ => ⟨S2, .f32⟩
  | .hbm, ⟨11, _⟩ => ⟨S_, .f32⟩
  | .hbm, ⟨12, _⟩ => ⟨S640000, .f32⟩
  | .hbm, ⟨13, _⟩ => ⟨S_, .f32⟩
  | .hbm, ⟨14, _⟩ => ⟨S10000, .f32⟩
  | .hbm, ⟨15, _⟩ => ⟨S640000x1, .i32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S10000x1, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .f32⟩
  | .hbm, ⟨34, _⟩ => ⟨S10000x128, .f32⟩
  | .hbm, ⟨35, _⟩ => ⟨S640000x1, .i32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S1x128, .f32⟩
  | .hbm, ⟨40, _⟩ => ⟨S10000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .f32⟩
  | .hbm, ⟨51, _⟩ => ⟨S10000x128, .f32⟩
  | .hbm, ⟨52, _⟩ => ⟨S640000x1, .i32⟩
  | .hbm, ⟨53, _⟩ => ⟨S10000x128, .f32⟩
  | .hbm, ⟨54, _⟩ => ⟨S10000x128, .f32⟩
  | .hbm, ⟨55, _⟩ => ⟨S10000x128, .f32⟩
  | .hbm, ⟨56, _⟩ => ⟨S1x128, .f32⟩
  | .hbm, ⟨57, _⟩ => ⟨S10000x128, .f32⟩
  | .hbm, ⟨58, _⟩ => ⟨S_, .i32⟩
  | .hbm, ⟨59, _⟩ => ⟨S640000, .i32⟩
  | .hbm, ⟨60, _⟩ => ⟨S640000, .i1⟩
  | .hbm, ⟨61, _⟩ => ⟨S_, .i32⟩
  | .hbm, ⟨62, _⟩ => ⟨S640000, .i32⟩
  | .hbm, ⟨63, _⟩ => ⟨S640000, .i32⟩
  | .hbm, ⟨64, _⟩ => ⟨S640000, .i32⟩
  | .hbm, ⟨65, _⟩ => ⟨S640000x1, .i32⟩
  | .hbm, ⟨66, _⟩ => ⟨S640000x128, .f32⟩
  | .hbm, ⟨67, _⟩ => ⟨S_, .i32⟩
  | .hbm, ⟨68, _⟩ => ⟨S640000, .i32⟩
  | .hbm, ⟨69, _⟩ => ⟨S640000, .i1⟩
  | .hbm, ⟨70, _⟩ => ⟨S_, .i32⟩
  | .hbm, ⟨71, _⟩ => ⟨S640000, .i32⟩
  | .hbm, ⟨72, _⟩ => ⟨S640000, .i32⟩
  | .hbm, ⟨73, _⟩ => ⟨S640000, .i32⟩
  | .hbm, ⟨74, _⟩ => ⟨S640000x1, .i32⟩
  | .hbm, ⟨75, _⟩ => ⟨S640000x128, .f32⟩
  | .hbm, ⟨76, _⟩ => ⟨S128x2, .f32⟩
  | .hbm, ⟨77, _⟩ => ⟨S128x2, .f32⟩
  | .hbm, ⟨78, _⟩ => ⟨S1x2, .f32⟩
  | .hbm, ⟨79, _⟩ => ⟨S640000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S128x2, .f32⟩
  | .local _ .vmem, ⟨23, _⟩ => ⟨S128x2, .f32⟩
  | .local _ .vmem, ⟨24, _⟩ => ⟨S1x2, .f32⟩
  | .local _ .vmem, ⟨25, _⟩ => ⟨S8000x2, .f32⟩
  | .local _ .vmem, ⟨26, _⟩ => ⟨S8000x2, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  shapeCasts_S10000_S10000x1 : S10000.ShapeCasts S10000x1
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S256x2_S128x2_0_0 : S256x2.Slices ![0, 0] S128x2
  slices_S256x2_S128x2_128_0 : S256x2.Slices ![128, 0] S128x2
  shapeCasts_S2_S1x2 : S2.ShapeCasts S1x2
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S2000x128_S128x128_S2000x128_1_0_0_1_n_n_wf : DotDims.WF S2000x128 S128x128 S2000x128 [1] [0] [0] [1] [] []
  dot_S8000x128_S128x2_S8000x2_1_0_0_1_n_n_wf : DotDims.WF S8000x128 S128x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .f32 = 32 ∨ (Rect.block (s := S10000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S10000x128.size a
  hwx0_5 : ∀ i : grid0.Coords, EltTy.bits .f32 = 32 ∨ (Rect.block (s := S10000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S10000x128.size a
  hwx1_5 : ∀ i : grid1.Coords, EltTy.bits .f32 = 32 ∨ (Rect.block (s := S10000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S640000x128.size a
  hwx2_0 : ∀ i : grid2.Coords, EltTy.bits .f32 = 32 ∨ (Rect.block (s := S640000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S640000x128.size a
  hwx2_1 : ∀ i : grid2.Coords, EltTy.bits .f32 = 32 ∨ (Rect.block (s := S640000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x2.size a ≤ S128x2.size a
  hwx2_2 : ∀ i : grid2.Coords, EltTy.bits .f32 = 32 ∨ (Rect.block (s := S128x2) S128x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S128x2.size a
  hwx2_3 : ∀ i : grid2.Coords, EltTy.bits .f32 = 32 ∨ (Rect.block (s := S128x2) S128x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x2.size a ≤ S640000x2.size a
  hwx2_5 : ∀ i : grid2.Coords, EltTy.bits .f32 = 32 ∨ (Rect.block (s := S640000x2) S8000x2.size (cc2_transform_5 i) (hinb2_5 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S8000x128_S128x2_S8000x2_1_0_0_1_n_n : DotDims S8000x128 S128x2 S8000x2 where
  lhsContracting := [1]
  rhsContracting := [0]
  lhsNonContracting := [0]
  rhsNonContracting := [1]
  lhsBatch := []
  rhsBatch := []
  wf := dot_S8000x128_S128x2_S8000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S128x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S128x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S8000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩
abbrev S640000x256 : Shape := ⟨2, ![640000, 256]⟩
abbrev S640000x2 : Shape := ⟨2, ![640000, 2]⟩
abbrev S1x2 : Shape := ⟨2, ![1, 2]⟩

abbrev nBuf : Space → Nat
  | .hbm => 99
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S256x2, .f32⟩
  | .hbm, ⟨10, _⟩ => ⟨S2, .f32⟩
  | .hbm, ⟨11, _⟩ => ⟨S10000x128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S10000x128, .f32⟩
  | .hbm, ⟨23, _⟩ => ⟨S640000x1, .i32⟩
  | .hbm, ⟨24, _⟩ => ⟨S10000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S10000, .f32⟩
  | .hbm, ⟨29, _⟩ => ⟨S640000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S1x128, .f32⟩
  | .hbm, ⟨40, _⟩ => ⟨S10000x128, .f32⟩
  | .hbm, ⟨41, _⟩ => ⟨S10000x128, .f32⟩
  | .hbm, ⟨42, _⟩ => ⟨S_, .f32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S10000x128, .f32⟩
  | .hbm, ⟨57, _⟩ => ⟨S640000x1, .i32⟩
  | .hbm, ⟨58, _⟩ => ⟨S10000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S10000, .f32⟩
  | .hbm, ⟨63, _⟩ => ⟨S640000x1, .i32⟩
  | .hbm, ⟨64, _⟩ => ⟨S10000, .f32⟩
  | .hbm, ⟨65, _⟩ => ⟨S_, .f32⟩
  | .hbm, ⟨66, _⟩ => ⟨S10000, .f32⟩
  | .hbm, ⟨67, _⟩ => ⟨S10000, .f32⟩
  | .hbm, ⟨68, _⟩ => ⟨S10000x1, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S1x128, .f32⟩
  | .hbm, ⟨74, _⟩ => ⟨S10000x128, .f32⟩
  | .hbm, ⟨75, _⟩ => ⟨S10000x128, .f32⟩
  | .hbm, ⟨76, _⟩ => ⟨S_, .i32⟩
  | .hbm, ⟨77, _⟩ => ⟨S640000, .i32⟩
  | .hbm, ⟨78, _⟩ => ⟨S640000, .i1⟩
  | .hbm, ⟨79, _⟩ => ⟨S_, .i32⟩
  | .hbm, ⟨80, _⟩ => ⟨S640000, .i32⟩
  | .hbm, ⟨81, _⟩ => ⟨S640000, .i32⟩
  | .hbm, ⟨82, _⟩ => ⟨S640000, .i32⟩
  | .hbm, ⟨83, _⟩ => ⟨S640000x1, .i32⟩
  | .hbm, ⟨84, _⟩ => ⟨S640000x128, .f32⟩
  | .hbm, ⟨85, _⟩ => ⟨S_, .i32⟩
  | .hbm, ⟨86, _⟩ => ⟨S640000, .i32⟩
  | .hbm, ⟨87, _⟩ => ⟨S640000, .i1⟩
  | .hbm, ⟨88, _⟩ => ⟨S_, .i32⟩
  | .hbm, ⟨89, _⟩ => ⟨S640000, .i32⟩
  | .hbm, ⟨90, _⟩ => ⟨S640000, .i32⟩
  | .hbm, ⟨91, _⟩ => ⟨S640000, .i32⟩
  | .hbm, ⟨92, _⟩ => ⟨S640000x1, .i32⟩
  | .hbm, ⟨93, _⟩ => ⟨S640000x128, .f32⟩
  | .hbm, ⟨94, _⟩ => ⟨S640000x256, .f32⟩
  | .hbm, ⟨95, _⟩ => ⟨S640000x2, .f32⟩
  | .hbm, ⟨96, _⟩ => ⟨S1x2, .f32⟩
  | .hbm, ⟨97, _⟩ => ⟨S640000x2, .f32⟩
  | .hbm, ⟨98, _⟩ => ⟨S640000x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S640000x128_S640000x128_S640000x256_d1 : Shape.Concatenates [S640000x128, S640000x128] S640000x256 1
  bcast_S2_S1x2_1 : S2.BroadcastsInDim S1x2 (![1] : Fin 1 → Fin S1x2.rank)
  bcast_S1x2_S640000x2_0_1 : S1x2.BroadcastsInDim S640000x2 (![0, 1] : Fin 2 → Fin S640000x2.rank)
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S640000x256_S256x2_S640000x2_1_0_0_1_n_n_wf : DotDims.WF S640000x256 S256x2 S640000x2 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S640000x256_S256x2_S640000x2_1_0_0_1_n_n : DotDims S640000x256 S256x2 S640000x2 where
  lhsContracting := [1]
  rhsContracting := [0]
  lhsNonContracting := [0]
  rhsNonContracting := [1]
  lhsBatch := []
  rhsBatch := []
  wf := dot_S640000x256_S256x2_S640000x2_1_0_0_1_n_n_wf

class Facts : Prop extends Facts₀ where

variable [Facts]
-- ==== Proof.LayerSpec.lean ====
/-
  One message-passing layer read at an entry, for any sizes.

  For a node table x and an aggregate a, both [N, K], two weight matrices ws, wn of [K, C] and a bias kept as one row
  [1, C], the layer's value at (r, q) is

      sum_k x[r, k] * ws[k, q]  +  sum_k a[r, k] * wn[k, q]  +  b[0, q]

  on the extended reals. The edge scorer has the same form: its two "tables" are the gathered source and destination
  rows, its two weight matrices the upper and the lower half of the predictor's matrix.
-/
import Idealize.ShloMosaic.Lib.ValueIdx
import Idealize.ShloMosaic.PureOps.Ideal

noncomputable section

namespace Cert.Sage

open Idealize.ShloMosaic Idealize.ShloMosaic.ValueIdx

variable {N K C : Nat}

/-- The layer's value at row r, column q. -/
def layerAt (x a : FVec Ideal ⟨2, ![N, K]⟩ .f32) (ws wn : FVec Ideal ⟨2, ![K, C]⟩ .f32)
    (b : FVec Ideal ⟨2, ![1, C]⟩ .f32) (r : Fin N) (q : Fin C) : EReal :=
  (∑ k : Fin K, (x (ix2 r k) : EReal) * (ws (ix2 k q) : EReal)
    + ∑ k : Fin K, (a (ix2 r k) : EReal) * (wn (ix2 k q) : EReal)) + (b (ix2 (0 : Fin 1) q) : EReal)

/-- The layer as one array [N, C]. -/
def layer (x a : FVec Ideal ⟨2, ![N, K]⟩ .f32) (ws wn : FVec Ideal ⟨2, ![K, C]⟩ .f32)
    (b : FVec Ideal ⟨2, ![1, C]⟩ .f32) : FVec Ideal ⟨2, ![N, C]⟩ .f32 :=
  fun i => layerAt x a ws wn b ⟨(i 0).val, (i 0).isLt⟩ ⟨(i 1).val, (i 1).isLt⟩

/-- The rectifier, entry by entry: the larger of the value and zero. -/
def relu (v : FVec Ideal ⟨2, ![N, C]⟩ .f32) : FVec Ideal ⟨2, ![N, C]⟩ .f32 :=
  fun i => max (v i : EReal) 0

theorem layer_ix2 (x a : FVec Ideal ⟨2, ![N, K]⟩ .f32) (ws wn : FVec Ideal ⟨2, ![K, C]⟩ .f32)
    (b : FVec Ideal ⟨2, ![1, C]⟩ .f32) (r : Fin N) (q : Fin C) :
    layer x a ws wn b (ix2 r q) = layerAt x a ws wn b r q := rfl

theorem relu_apply (v : FVec Ideal ⟨2, ![N, C]⟩ .f32) (i : (⟨2, ![N, C]⟩ : Shape).Idx) :
    relu v i = max (v i : EReal) 0 := rfl

/-- Two arrays [N, C] are equal when they agree at every (r, q). -/
theorem ext_ix2 {α : Type} (u v : (⟨2, ![N, C]⟩ : Shape).Idx → α)
    (h : ∀ (r : Fin N) (q : Fin C), u (ix2 r q) = v (ix2 r q)) : u = v := by
  funext i
  obtain ⟨r, q, rfl⟩ : ∃ (r : Fin N) (q : Fin C), i = ix2 r q := ⟨i 0, i 1, eq_ix2 i⟩
  exact h r q

end Cert.Sage

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.BodyEntry.lean ====
/-
  What a kernel body computes, read at one entry.

  All three bodies have one form: two blocks of rows [R, K], two weight matrices [K, C] and a bias row [1, C] are
  loaded, the four matrices are narrowed to bf16 (the identity on the extended reals), each block is multiplied into a
  zero accumulator, the two products are added, the bias row is broadcast down the R rows and added; the first node
  layer then takes the larger of the result and zero. At (p, q) this is the layer's value at (p, q) of the loaded
  blocks.
-/
import proofs.«139914_j34797825032691_1_alg».proof.Proof.Gen.KernelIdeal.Skeleton
import proofs.«139914_j34797825032691_1_alg».proof.Proof.LayerSpec
import proofs.«139914_j34797825032691_1_alg».proof.Proof.LibMatmul
import Idealize.ShloMosaic.Lib.Pipeline.Value

noncomputable section

namespace Cert.Sage

open Idealize.ShloMosaic Idealize.ShloMosaic.ValueIdx

/-- The bias row broadcast down R rows, at (p, q), is the row at (0, q). -/
theorem biasRow_apply {R C : Nat} (x4 : FVec Ideal ⟨2, ![1, C]⟩ .f32)
    (hb : (⟨2, ![1, C]⟩ : Shape).Broadcasts ⟨2, ![R, C]⟩) (p : Fin R) (q : Fin C) :
    broadcastTo ⟨2, ![R, C]⟩ x4 hb (ix2 p q) = x4 (ix2 (0 : Fin 1) q) := by
  refine broadcastTo_apply x4 hb (ix2 p q) (ix2 (0 : Fin 1) q) ?_
  intro a
  match a with
  | ⟨0, _⟩ => simp
  | ⟨1, _⟩ =>
    show q.val = if C = 1 then 0 else q.val
    split
    · have := q.isLt; omega
    · rfl

/-- Two products into zero accumulators, added, plus the broadcast bias row: the layer's value at (p, q). -/
theorem body_apply {R K C : Nat} (x0 x1 : FVec Ideal ⟨2, ![R, K]⟩ .f32) (x2 x3 : FVec Ideal ⟨2, ![K, C]⟩ .f32)
    (x4 : FVec Ideal ⟨2, ![1, C]⟩ .f32) (hb : (⟨2, ![1, C]⟩ : Shape).Broadcasts ⟨2, ![R, C]⟩) (p : Fin R) (q : Fin C) :
    addf (addf
        (FloatOps.matmul (DotDims.plain R K C) none (truncf .bf16 x0) (truncf .bf16 x2)
          (constant ⟨2, ![R, C]⟩ .f32 0x00000000#32))
        (FloatOps.matmul (DotDims.plain R K C) none (truncf .bf16 x1) (truncf .bf16 x3)
          (constant ⟨2, ![R, C]⟩ .f32 0x00000000#32)))
      (broadcastTo ⟨2, ![R, C]⟩ x4 hb) (ix2 p q)
      = layerAt x0 x1 x2 x3 x4 p q := by
  show (FloatOps.matmul (F := Ideal) (DotDims.plain R K C) none (truncf .bf16 x0) (truncf .bf16 x2)
          (constant ⟨2, ![R, C]⟩ .f32 0x00000000#32) (ix2 p q)
        + FloatOps.matmul (F := Ideal) (DotDims.plain R K C) none (truncf .bf16 x1) (truncf .bf16 x3)
          (constant ⟨2, ![R, C]⟩ .f32 0x00000000#32) (ix2 p q))
      + broadcastTo ⟨2, ![R, C]⟩ x4 hb (ix2 p q) = _
  rw [Cert.Lib.Matmul.matmul_zero_apply, Cert.Lib.Matmul.matmul_zero_apply, biasRow_apply]
  rfl

/-! ## The three printed payloads -/

open Cert.KernelIdeal Cert.KernelIdeal.Gen

/-- The first node layer's stored value at (p, q): the rectified layer value of the loaded blocks. -/
theorem k0_pay1_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q) = max (layerAt x0 x1 x2 x3 x4 p q) 0 := by
  unfold k0_pay1
  simp only [shapeCast_self]
  refine Eq.trans (b := max (layerAt x0 x1 x2 x3 x4 p q) (Ideal.ofBits .f32 0x00000000#32)) ?_
    (by rw [Ideal.ofBits_zero_f32])
  exact congrArg (fun v : EReal => max v (Ideal.ofBits .f32 0x00000000#32))
    (body_apply x0 x1 x2 x3 x4 broadcasts_S1x128_S2000x128 p q)

/-- The second node layer's stored value at (p, q): the layer value of the loaded blocks. -/
theorem k1_pay1_apply (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q) = layerAt x0 x1 x2 x3 x4 p q := by
  unfold k1_pay1
  simp only [shapeCast_self]
  exact body_apply x0 x1 x2 x3 x4 broadcasts_S1x128_S2000x128 p q

/-- The edge scorer's stored value at (p, q): the layer value of the two gathered blocks and the two halves of the
    predictor's matrix. -/
theorem k2_pay1_apply (x0 x1 : Vec Ideal S8000x128 .f32) (x2 x3 : Vec Ideal S128x2 .f32) (x4 : Vec Ideal S1x2 .f32)
    (p : Fin 8000) (q : Fin 2) :
    k2_pay1 (F := Ideal) x0 x1 x2 x3 x4 (ix2 p q) = layerAt x0 x1 x2 x3 x4 p q := by
  unfold k2_pay1
  simp only [shapeCast_self]
  exact body_apply x0 x1 x2 x3 x4 broadcasts_S1x2_S8000x2 p q

end Cert.Sage

end
-- ==== Proof.Region0.lean ====
/-
  The first node layer's region: from blocks to the whole array.

  The grid has five points; point t stages rows 2000 t .. 2000 t + 1999 of the node table and of the aggregate, the
  two whole weight matrices and the whole bias row, and writes back rows 2000 t .. 2000 t + 1999 of the result. What a
  point writes is the rectified layer value of what it staged, so it is block t of the rectified layer of the whole
  arrays; the five blocks tile the 10000 rows, so the result array ends as that function of the arrays the region
  found.
-/
import proofs.«139914_j34797825032691_1_alg».proof.Proof.Gen.KernelIdeal.Frame
import proofs.«139914_j34797825032691_1_alg».proof.Proof.BodyEntry
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row p of block n among blocks of 2000 rows. -/
def row2000 (n : Nat) (hn : n ≤ 4) (p : Fin 2000) : Fin 10000 := ⟨n * 2000 + p.val, by have := p.isLt; omega⟩

/-- The rectified layer of the arrays the region finds. -/
abbrev G0 (c : Dev nD) : Vec Ideal S10000x128 .f32 :=
  Cert.Sage.relu (Cert.Sage.layer (V c main_arg0) (V c main_v20) (V c main_arg3) (V c main_arg4) (V c main_v21))

/-- What a point stores, from blocks that are rows n*2000.. of the tables and the whole matrices and bias row, is the
    rectified layer of the whole arrays at those rows. -/
theorem point0 (X A : Vec Ideal S10000x128 .f32) (WS WN : Vec Ideal S128x128 .f32) (B : Vec Ideal S1x128 .f32)
    (x0 x1 : Vec Ideal S2000x128 .f32) (x2 x3 : Vec Ideal S128x128 .f32) (x4 : Vec Ideal S1x128 .f32)
    (n : Nat) (hn : n ≤ 4)
    (h0 : ∀ (p : Fin 2000) (k : Fin 128), x0 (ix2 p k) = X (ix2 (row2000 n hn p) k))
    (h1 : ∀ (p : Fin 2000) (k : Fin 128), x1 (ix2 p k) = A (ix2 (row2000 n hn p) k))
    (h2 : x2 = WS) (h3 : x3 = WN) (h4 : x4 = B) (p : Fin 2000) (q : Fin 128) :
    k0_pay1 (F := Ideal) x0 x1 x2 x3 x4 (ix2 p q)
      = Cert.Sage.relu (Cert.Sage.layer X A WS WN B) (ix2 (row2000 n hn p) q) := by
  subst h2 h3 h4
  rw [Cert.Sage.k0_pay1_apply, Cert.Sage.relu_apply, Cert.Sage.layer_ix2]
  unfold Cert.Sage.layerAt
  simp only [h0, h1]

/-- The printed index maps over the five points: the two row-blocked inputs move with the output, the other three
    stay at block (0, 0). -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 4 ∧ win0_5.index t (1 : Fin 2) = 0 :=
  (by decide +kernel : ∀ t : Fin grid0.N, _)

/-- Every one of the five row blocks is some point's. -/
theorem idx_onto0 : ∀ q0 : Fin 5, ∃ t : Fin cfg0.N, win0_5.index t = ![q0.val, 0] :=
  (by decide +kernel : ∀ q0 : Fin 5, ∃ t : Fin grid0.N, win0_5.index t = ![q0.val, 0])

/-- What point t writes back is block t of the rectified layer of the arrays the region finds. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11⟩ := idx_facts0 t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
      = G0 V c (((cfg0.win 5).blk t).view.emb (ix2 p q))
  have hemb : ((cfg0.win 5).blk t).view.emb (ix2 p q) = ix2 (row2000 (win0_5.index t (0 : Fin 2)) e10 p) q := by
    funext a; apply Fin.ext
    match a with
    | ⟨0, _⟩ => show win0_5.index t (0 : Fin 2) * 2000 + 1 * p.val = win0_5.index t (0 : Fin 2) * 2000 + p.val; omega
    | ⟨1, _⟩ => show win0_5.index t (1 : Fin 2) * 128 + 1 * q.val = q.val; omega
  rw [hemb]
  refine point0 (V c main_arg0) (V c main_v20) (V c main_arg3) (V c main_arg4) (V c main_v21)
    (iblk0 V c 0 t) (iblk0 V c 1 t) (iblk0 V c 2 t) (iblk0 V c 3 t) (iblk0 V c 4 t)
    (win0_5.index t (0 : Fin 2)) e10 ?_ ?_ ?_ ?_ ?_ p q
  · intro p k
    show V c main_arg0 (((cfg0.win 0).blk t).view.emb (ix2 p k)) = V c main_arg0 (ix2 (row2000 _ e10 p) k)
    refine congrArg (V c main_arg0) ?_
    funext a; apply Fin.ext
    match a with
    | ⟨0, _⟩ => show win0_0.index t (0 : Fin 2) * 2000 + 1 * p.val = win0_5.index t (0 : Fin 2) * 2000 + p.val; omega
    | ⟨1, _⟩ => show win0_0.index t (1 : Fin 2) * 128 + 1 * k.val = k.val; omega
  · intro p k
    show V c main_v20 (((cfg0.win 1).blk t).view.emb (ix2 p k)) = V c main_v20 (ix2 (row2000 _ e10 p) k)
    refine congrArg (V c main_v20) ?_
    funext a; apply Fin.ext
    match a with
    | ⟨0, _⟩ => show win0_1.index t (0 : Fin 2) * 2000 + 1 * p.val = win0_5.index t (0 : Fin 2) * 2000 + p.val; omega
    | ⟨1, _⟩ => show win0_1.index t (1 : Fin 2) * 128 + 1 * k.val = k.val; omega
  · funext y
    show V c main_arg3 (((cfg0.win 2).blk t).view.emb y) = V c main_arg3 y
    refine congrArg (V c main_arg3) ?_
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg4 (((cfg0.win 3).blk t).view.emb y) = V c main_arg4 y
    refine congrArg (V c main_arg4) ?_
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v21 (((cfg0.win 4).blk t).view.emb y) = V c main_v21 y
    refine congrArg (V c main_v21) ?_
    funext a; apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega

/-- An index of the result array is in point t's block iff each coordinate is in the block's range on its axis. -/
theorem mem_blk0 (t : Fin cfg0.N) (i : S10000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v22).slice (win0_5.rect t)).set ↔ _
  rw [View.set_slice_whole, Rect.mem_set_unit]
  exact Iff.rfl

/-- The five row blocks cover the array: row r lies in block r / 2000. -/
theorem cover0 (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ := idx_onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk0]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- The result array after the region: the rectified layer of the arrays the region found. -/
theorem final0 (c : Dev nD) : (dat0 V c).arrAt 5 cfg0.N = G0 V c :=
  (dat0 V c).arrAt_eq_of_cover 5 (G0 V c) (fun t _ => flushed0 V c t) cover0

end Cert.KernelIdeal.RegionValue

end
-- ==== Proof.Region1.lean ====
/-
  The second node layer's region: from blocks to the whole array.

  As in the first layer the grid has five points and point t stages rows 2000 t .. 2000 t + 1999 of the first layer's
  output and of its aggregate, the two whole weight matrices and the whole bias row, and writes back the same rows of
  the result. This layer has no rectifier: what a point writes is the layer value of what it staged, block t of the
  layer of the whole arrays; the five blocks tile the 10000 rows.
-/
import proofs.«139914_j34797825032691_1_alg».proof.Proof.Gen.KernelIdeal.Frame
import proofs.«139914_j34797825032691_1_alg».proof.Proof.BodyEntry
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- Row p of block n among five blocks of 2000 rows. -/
def rowOf5 (n : Nat) (hn : n ≤ 4) (p : Fin 2000) : Fin 10000 := ⟨n * 2000 + p.val, by have := p.isLt; omega⟩

/-- The layer of the arrays the region finds. -/
abbrev G1 (c : Dev nD) : Vec Ideal S10000x128 .f32 :=
  Cert.Sage.layer (V c main_v22) (V c main_v34) (V c main_arg6) (V c main_arg7) (V c main_v35)

/-- What a point stores, from blocks that are rows n*2000.. of the two tables and the whole matrices and bias row, is
    the layer of the whole arrays at those rows. -/
theorem point1 (X A : Vec Ideal S10000x128 .f32) (WS WN : Vec Ideal S128x128 .f32) (B : Vec Ideal S1x128 .f32)
    (x0 x1 : Vec Ideal S2000x128 .f32) (x2 x3 : Vec Ideal S128x128 .f32) (x4 : Vec Ideal S1x128 .f32)
    (n : Nat) (hn : n ≤ 4)
    (h0 : ∀ (p : Fin 2000) (k : Fin 128), x0 (ix2 p k) = X (ix2 (rowOf5 n hn p) k))
    (h1 : ∀ (p : Fin 2000) (k : Fin 128), x1 (ix2 p k) = A (ix2 (rowOf5 n hn p) k))
    (h2 : x2 = WS) (h3 : x3 = WN) (h4 : x4 = B) (p : Fin 2000) (q : Fin 128) :
    k1_pay1 (F := Ideal) x0 x1 x2 x3 x4 (ix2 p q)
      = Cert.Sage.layer X A WS WN B (ix2 (rowOf5 n hn p) q) := by
  subst h2 h3 h4
  rw [Cert.Sage.k1_pay1_apply, Cert.Sage.layer_ix2]
  unfold Cert.Sage.layerAt
  simp only [h0, h1]

/-- The printed index maps over the five points: the two row-blocked inputs move with the output, the other three
    stay at block (0, 0). -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 4 ∧ win1_5.index t (1 : Fin 2) = 0 :=
  (by decide +kernel : ∀ t : Fin grid1.N, _)

/-- Every one of the five row blocks is some point's. -/
theorem idx_onto1 : ∀ q0 : Fin 5, ∃ t : Fin cfg1.N, win1_5.index t = ![q0.val, 0] :=
  (by decide +kernel : ∀ q0 : Fin 5, ∃ t : Fin grid1.N, win1_5.index t = ![q0.val, 0])

/-- What point t writes back is block t of the layer of the arrays the region finds. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S2000x128) hz1, View.ld_unit_zero (S := S128x128) hz1, View.ld_unit_zero (S := S1x128) hz1]
  obtain ⟨e0, e1, e2, e3, e4, e5, e6, e7, e8, e9, e10, e11⟩ := idx_facts1 t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
      = G1 V c (((cfg1.win 5).blk t).view.emb (ix2 p q))
  have hemb : ((cfg1.win 5).blk t).view.emb (ix2 p q) = ix2 (rowOf5 (win1_5.index t (0 : Fin 2)) e10 p) q := by
    funext a; apply Fin.ext
    match a with
    | ⟨0, _⟩ => show win1_5.index t (0 : Fin 2) * 2000 + 1 * p.val = win1_5.index t (0 : Fin 2) * 2000 + p.val; omega
    | ⟨1, _⟩ => show win1_5.index t (1 : Fin 2) * 128 + 1 * q.val = q.val; omega
  rw [hemb]
  refine point1 (V c main_v22) (V c main_v34) (V c main_arg6) (V c main_arg7) (V c main_v35)
    (iblk1 V c 0 t) (iblk1 V c 1 t) (iblk1 V c 2 t) (iblk1 V c 3 t) (iblk1 V c 4 t)
    (win1_5.index t (0 : Fin 2)) e10 ?_ ?_ ?_ ?_ ?_ p q
  · intro p k
    show V c main_v22 (((cfg1.win 0).blk t).view.emb (ix2 p k)) = V c main_v22 (ix2 (rowOf5 _ e10 p) k)
    refine congrArg (V c main_v22) ?_
    funext a; apply Fin.ext
    match a with
    | ⟨0, _⟩ => show win1_0.index t (0 : Fin 2) * 2000 + 1 * p.val = win1_5.index t (0 : Fin 2) * 2000 + p.val; omega
    | ⟨1, _⟩ => show win1_0.index t (1 : Fin 2) * 128 + 1 * k.val = k.val; omega
  · intro p k
    show V c main_v34 (((cfg1.win 1).blk t).view.emb (ix2 p k)) = V c main_v34 (ix2 (rowOf5 _ e10 p) k)
    refine congrArg (V c main_v34) ?_
    funext a; apply Fin.ext
    match a with
    | ⟨0, _⟩ => show win1_1.index t (0 : Fin 2) * 2000 + 1 * p.val = win1_5.index t (0 : Fin 2) * 2000 + p.val; omega
    | ⟨1, _⟩ => show win1_1.index t (1 : Fin 2) * 128 + 1 * k.val = k.val; omega
  · funext y
    show V c main_arg6 (((cfg1.win 2).blk t).view.emb y) = V c main_arg6 y
    refine congrArg (V c main_arg6) ?_
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg7 (((cfg1.win 3).blk t).view.emb y) = V c main_arg7 y
    refine congrArg (V c main_arg7) ?_
    funext a; apply Fin.ext
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v35 (((cfg1.win 4).blk t).view.emb y) = V c main_v35 y
    refine congrArg (V c main_v35) ?_
    funext a; apply Fin.ext
    match a with
    | ⟨0, _⟩ => show win1_4.index t (0 : Fin 2) * 1 + 1 * (y 0).val = (y 0).val; omega
    | ⟨1, _⟩ => show win1_4.index t (1 : Fin 2) * 128 + 1 * (y 1).val = (y 1).val; omega

/-- An index of the result array is in point t's block iff each coordinate is in the block's range on its axis. -/
theorem mem_blk1 (t : Fin cfg1.N) (i : S10000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v36).slice (win1_5.rect t)).set ↔ _
  rw [View.set_slice_whole, Rect.mem_set_unit]
  exact Iff.rfl

/-- The five row blocks cover the array: row r lies in block r / 2000. -/
theorem cover1 (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  obtain ⟨t, ht⟩ := idx_onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- The result array after the region: the layer of the arrays the region found. -/
theorem final1 (c : Dev nD) : (dat1 V c).arrAt 5 cfg1.N = G1 V c :=
  (dat1 V c).arrAt_eq_of_cover 5 (G1 V c) (fun t _ => flushed1 V c t) cover1

end Cert.KernelIdeal.RegionValue

end
-- ==== Proof.Region2.lean ====
/-
  The edge scorer's region: from blocks to the whole array.

  The grid has eighty points; point t stages rows 8000 t .. 8000 t + 7999 of the gathered source rows and of the
  gathered destination rows, the two whole halves of the predictor's matrix and the whole bias row, and writes back the
  same rows of the scores. What a point writes is the layer value of what it staged (the source rows against the upper
  half, the destination rows against the lower half, plus the bias), block t of that layer of the whole arrays; the
  eighty blocks tile the 640000 rows.
-/
import proofs.«139914_j34797825032691_1_alg».proof.Proof.Gen.KernelIdeal.Frame
import proofs.«139914_j34797825032691_1_alg».proof.Proof.BodyEntry
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Row p of block n among eighty blocks of 8000 rows. -/
def rowOf80 (n : Nat) (hn : n ≤ 79) (p : Fin 8000) : Fin 640000 := ⟨n * 8000 + p.val, by have := p.isLt; omega⟩

/-- The scores as the layer of the arrays the region finds. -/
abbrev G2 (c : Dev nD) : Vec Ideal S640000x2 .f32 :=
  Cert.Sage.layer (V c main_v43) (V c main_v50) (V c main_v51) (V c main_v52) (V c main_v53)

/-- What a point stores, from blocks that are rows n*8000.. of the two gathered tables and the whole half matrices and
    bias row, is the layer of the whole arrays at those rows. -/
theorem point2 (X A : Vec Ideal S640000x128 .f32) (WS WN : Vec Ideal S128x2 .f32) (B : Vec Ideal S1x2 .f32)
    (x0 x1 : Vec Ideal S8000x128 .f32) (x2 x3 : Vec Ideal S128x2 .f32) (x4 : Vec Ideal S1x2 .f32)
    (n : Nat) (hn : n ≤ 79)
    (h0 : ∀ (p : Fin 8000) (k : Fin 128), x0 (ix2 p k) = X (ix2 (rowOf80 n hn p) k))
    (h1 : ∀ (p : Fin 8000) (k : Fin 128), x1 (ix2 p k) = A (ix2 (rowOf80 n hn p) k))
    (h2 : x2 = WS) (h3 : x3 = WN) (h4 : x4 = B) (p : Fin 8000) (q : Fin 2) :
    k2_pay1 (F := Ideal) x0 x1 x2 x3 x4 (ix2 p q)
      = Cert.Sage.layer X A WS WN B (ix2 (rowOf80 n hn p) q) := by
  subst h2 h3 h4
  rw [Cert.Sage.k2_pay1_apply, Cert.Sage.layer_ix2]
  unfold Cert.Sage.layerAt
  simp only [h0, h1]

/-- The printed index maps over the eighty points: the two row-blocked inputs move with the output, the other three
    stay at block (0, 0). -/
theorem idx_facts2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 79 ∧ win2_5.index t (1 : Fin 2) = 0 :=
  (by decide +kernel : ∀ t : Fin grid2.N, _)

/-- Every one of the eighty row blocks is some point's. -/
theorem idx_onto2 : ∀ q0 : Fin 80, ∃ t : Fin cfg2.N, win2_5.index t = ![q0.val, 0] :=
  (by decide +kernel : ∀ q0 : Fin 80, ∃ t : Fin grid2.N, win2_5.index t = ![q0.val, 0])

/-- What point t writes back is block t of the layer of the arrays the region finds. -/
theorem flushed2 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S8000x128) hz2, View.ld_unit_zero (S := S128x2) hz2, View.ld_unit_zero (S := S1x2) hz2]
  obtain ⟨e0, e1, e2, e3, e4, e5, e6, e7, e8, e9, e10, e11⟩ := idx_facts2 t
  funext j
  obtain ⟨p, q, rfl⟩ : ∃ (p : Fin 8000) (q : Fin 2), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
      = G2 V c (((cfg2.win 5).blk t).view.emb (ix2 p q))
  have hemb : ((cfg2.win 5).blk t).view.emb (ix2 p q) = ix2 (rowOf80 (win2_5.index t (0 : Fin 2)) e10 p) q := by
    funext a; apply Fin.ext
    match a with
    | ⟨0, _⟩ => show win2_5.index t (0 : Fin 2) * 8000 + 1 * p.val = win2_5.index t (0 : Fin 2) * 8000 + p.val; omega
    | ⟨1, _⟩ => show win2_5.index t (1 : Fin 2) * 2 + 1 * q.val = q.val; omega
  rw [hemb]
  refine point2 (V c main_v43) (V c main_v50) (V c main_v51) (V c main_v52) (V c main_v53)
    (iblk2 V c 0 t) (iblk2 V c 1 t) (iblk2 V c 2 t) (iblk2 V c 3 t) (iblk2 V c 4 t)
    (win2_5.index t (0 : Fin 2)) e10 ?_ ?_ ?_ ?_ ?_ p q
  · intro p k
    show V c main_v43 (((cfg2.win 0).blk t).view.emb (ix2 p k)) = V c main_v43 (ix2 (rowOf80 _ e10 p) k)
    refine congrArg (V c main_v43) ?_
    funext a; apply Fin.ext
    match a with
    | ⟨0, _⟩ => show win2_0.index t (0 : Fin 2) * 8000 + 1 * p.val = win2_5.index t (0 : Fin 2) * 8000 + p.val; omega
    | ⟨1, _⟩ => show win2_0.index t (1 : Fin 2) * 128 + 1 * k.val = k.val; omega
  · intro p k
    show V c main_v50 (((cfg2.win 1).blk t).view.emb (ix2 p k)) = V c main_v50 (ix2 (rowOf80 _ e10 p) k)
    refine congrArg (V c main_v50) ?_
    funext a; apply Fin.ext
    match a with
    | ⟨0, _⟩ => show win2_1.index t (0 : Fin 2) * 8000 + 1 * p.val = win2_5.index t (0 : Fin 2) * 8000 + p.val; omega
    | ⟨1, _⟩ => show win2_1.index t (1 : Fin 2) * 128 + 1 * k.val = k.val; omega
  · funext y
    show V c main_v51 (((cfg2.win 2).blk t).view.emb y) = V c main_v51 y
    refine congrArg (V c main_v51) ?_
    funext a; apply Fin.ext
    match a with
    | ⟨0, _⟩ => show win2_2.index t (0 : Fin 2) * 128 + 1 * (y 0).val = (y 0).val; omega
    | ⟨1, _⟩ => show win2_2.index t (1 : Fin 2) * 2 + 1 * (y 1).val = (y 1).val; omega
  · funext y
    show V c main_v52 (((cfg2.win 3).blk t).view.emb y) = V c main_v52 y
    refine congrArg (V c main_v52) ?_
    funext a; apply Fin.ext
    match a with
    | ⟨0, _⟩ => show win2_3.index t (0 : Fin 2) * 128 + 1 * (y 0).val = (y 0).val; omega
    | ⟨1, _⟩ => show win2_3.index t (1 : Fin 2) * 2 + 1 * (y 1).val = (y 1).val; omega
  · funext y
    show V c main_v53 (((cfg2.win 4).blk t).view.emb y) = V c main_v53 y
    refine congrArg (V c main_v53) ?_
    funext a; apply Fin.ext
    match a with
    | ⟨0, _⟩ => show win2_4.index t (0 : Fin 2) * 1 + 1 * (y 0).val = (y 0).val; omega
    | ⟨1, _⟩ => show win2_4.index t (1 : Fin 2) * 2 + 1 * (y 1).val = (y 1).val; omega

/-- An index of the score array is in point t's block iff each coordinate is in the block's range on its axis. -/
theorem mem_blk2 (t : Fin cfg2.N) (i : S640000x2.Idx) :
    i ∈ ((cfg2.win 5).blk t).view.set ↔ ∀ a : Fin 2, win2_5.index t a * S8000x2.size a ≤ (i a).val
      ∧ (i a).val < win2_5.index t a * S8000x2.size a + S8000x2.size a := by
  show i ∈ ((View.whole main_v54).slice (win2_5.rect t)).set ↔ _
  rw [View.set_slice_whole, Rect.mem_set_unit]
  exact Iff.rfl

/-- The eighty row blocks cover the array: row r lies in block r / 8000. -/
theorem cover2 (i : S640000x2.Idx) :
    ∃ t : Fin cfg2.N, (cfg2.win 5).flush t = true ∧ i ∈ ((cfg2.win 5).blk t).view.set := by
  have hi0 : (i 0).val < 640000 := (i 0).isLt
  have hi1 : (i 1).val < 2 := (i 1).isLt
  obtain ⟨t, ht⟩ := idx_onto2 ⟨(i 0).val / 8000, by omega⟩
  have q0 : win2_5.index t (0 : Fin 2) = (i 0).val / 8000 := congrFun ht 0
  have q1 : win2_5.index t (1 : Fin 2) = 0 := congrFun ht 1
  refine ⟨t, flush2_5 t, ?_⟩
  rw [mem_blk2]
  intro a
  match a with
  | ⟨0, _⟩ =>
    show win2_5.index t (0 : Fin 2) * 8000 ≤ (i 0).val ∧ (i 0).val < win2_5.index t (0 : Fin 2) * 8000 + 8000
    omega
  | ⟨1, _⟩ =>
    show win2_5.index t (1 : Fin 2) * 2 ≤ (i 1).val ∧ (i 1).val < win2_5.index t (1 : Fin 2) * 2 + 2
    omega

/-- The score array after the region: the layer of the arrays the region found. -/
theorem final2 (c : Dev nD) : (dat2 V c).arrAt 5 cfg2.N = G2 V c :=
  (dat2 V c).arrAt_eq_of_cover 5 (G2 V c) (fun t _ => flushed2 V c t) cover2

end Cert.KernelIdeal.RegionValue

end
-- ==== Proof.AggLaw.lean ====
/-
  The mean aggregate in its two spellings.

  The kernel's program multiplies the scatter-added messages by a reciprocal degree computed once, 1 / max(deg, 1),
  kept as a column and broadcast along the rows; the reference divides the same scatter-added messages by
  max(deg, 1) broadcast along the rows. On the extended reals division by a nonzero M is multiplication by the
  inverse of M, so S * (1 / M) = S / M whenever M is not zero, and max(deg, 1) is at least one whatever deg is: the
  two spellings are one array. The gather and the scatter-add are the same function of the same operands on both
  sides and are never opened.
-/
import proofs.«139914_j34797825032691_1_alg».proof.Proof.Gen.KernelIdeal
import proofs.«139914_j34797825032691_1_alg».proof.Proof.Gen.ReferenceIdeal.Read
import Idealize.ShloMosaic.Lib.Pipeline.Value
import Idealize.ShloMosaic.Lib.ValueIdx
import Idealize.ShloMosaic.PureOps.Ideal.Laws
import Idealize.ShloMosaic.Lib.IdealHost

noncomputable section

namespace Cert.Sage

open Idealize.ShloMosaic Idealize.ShloMosaic.ValueIdx

/-- The reciprocal degree as the kernel's program keeps it: the column [10000, 1] of 1 / max(deg, 1), deg the
    scatter-add of ones by the destination indices. -/
def invDegK (x2 : IVec Cert.KernelIdeal.S640000 32) : FVec Ideal Cert.KernelIdeal.S10000x1 .f32 :=
  shapeCast Cert.KernelIdeal.S10000x1
    (Host.divf (broadcastInDim Cert.KernelIdeal.S10000 ![] Cert.KernelIdeal.Gen.bcast_S_S10000 (constant Cert.KernelIdeal.S_ .f32 0x3F800000#32))
      (maximumf
        (Host.scatterAdd Cert.KernelIdeal.scatter_S10000_S640000x1_S640000_n_0_0_1
          (broadcastInDim Cert.KernelIdeal.S10000 ![] Cert.KernelIdeal.Gen.bcast_S_S10000 (constant Cert.KernelIdeal.S_ .f32 0x00000000#32))
          (broadcastInDim Cert.KernelIdeal.S640000x1 ![0] Cert.KernelIdeal.Gen.bcast_S640000_S640000x1_0 x2)
          (broadcastInDim Cert.KernelIdeal.S640000 ![] Cert.KernelIdeal.Gen.bcast_S_S640000 (constant Cert.KernelIdeal.S_ .f32 0x3F800000#32)))
        (broadcastInDim Cert.KernelIdeal.S10000 ![] Cert.KernelIdeal.Gen.bcast_S_S10000 (constant Cert.KernelIdeal.S_ .f32 0x3F800000#32))))
    Cert.KernelIdeal.Gen.shapeCasts_S10000_S10000x1

/-- The source (or destination) indices as both programs hand them to a gather: a negative index moved up by the
    table's length, then laid out as a column. -/
def normIdxK (x1 : IVec Cert.KernelIdeal.S640000 32) : IVec Cert.KernelIdeal.S640000x1 32 :=
  broadcastInDim Cert.KernelIdeal.S640000x1 ![0] Cert.KernelIdeal.Gen.bcast_S640000_S640000x1_0
    (select
      (cmpi .slt x1 (broadcastInDim Cert.KernelIdeal.S640000 ![] Cert.KernelIdeal.Gen.bcast_S_S640000 (constantI Cert.KernelIdeal.S_ 32 0#32)))
      (addi x1 (broadcastInDim Cert.KernelIdeal.S640000 ![] Cert.KernelIdeal.Gen.bcast_S_S640000 (constantI Cert.KernelIdeal.S_ 32 10000#32)))
      x1)

/-- The gathered rows of a node table, in the kernel program's spelling. -/
def gatherK (h : FVec Ideal Cert.KernelIdeal.S10000x128 .f32) (x1 : IVec Cert.KernelIdeal.S640000 32) :
    FVec Ideal Cert.KernelIdeal.S640000x128 .f32 :=
  Host.gather Cert.KernelIdeal.gather_S10000x128_S640000x1_S640000x128_1_0_n_n_0_1_1128 h (normIdxK x1)

/-- The mean aggregate of a node table h as the kernel's program spells it, from a reciprocal-degree column. -/
def aggK (h : FVec Ideal Cert.KernelIdeal.S10000x128 .f32) (x1 x2 : IVec Cert.KernelIdeal.S640000 32)
    (inv : FVec Ideal Cert.KernelIdeal.S10000x1 .f32) : FVec Ideal Cert.KernelIdeal.S10000x128 .f32 :=
  mulf
    (Host.scatterAdd Cert.KernelIdeal.scatter_S10000x128_S640000x1_S640000x128_1_0_0_1
      (broadcastInDim Cert.KernelIdeal.S10000x128 ![] Cert.KernelIdeal.Gen.bcast_S_S10000x128 (constant Cert.KernelIdeal.S_ .f32 0x00000000#32))
      (broadcastInDim Cert.KernelIdeal.S640000x1 ![0] Cert.KernelIdeal.Gen.bcast_S640000_S640000x1_0 x2)
      (gatherK h x1))
    (broadcastInDim Cert.KernelIdeal.S10000x128 ![0, 1] Cert.KernelIdeal.Gen.bcast_S10000x1_S10000x128_0_1 inv)

/-- The mean aggregate of a node table h as the reference spells it. -/
def aggR (h : FVec Ideal Cert.ReferenceIdeal.S10000x128 .f32) (x1 x2 : IVec Cert.ReferenceIdeal.S640000 32) :
    FVec Ideal Cert.ReferenceIdeal.S10000x128 .f32 :=
  Host.divf
    (Host.scatterAdd Cert.ReferenceIdeal.scatter_S10000x128_S640000x1_S640000x128_1_0_0_1
      (Cert.ReferenceIdeal.Read.val_main_v8 (F := Ideal)) (Cert.ReferenceIdeal.Read.val_main_v9 (F := Ideal) x2)
      (Host.gather Cert.ReferenceIdeal.gather_S10000x128_S640000x1_S640000x128_1_0_n_n_0_1_1128 h
        (Cert.ReferenceIdeal.Read.val_main_v6 (F := Ideal) x1)))
    (Cert.ReferenceIdeal.Read.val_main_v18 (F := Ideal) x2)

/-- The gather is one function in the two programs' spellings. -/
theorem gatherK_eq (h : FVec Ideal Cert.KernelIdeal.S10000x128 .f32) (x1 : IVec Cert.KernelIdeal.S640000 32) :
    gatherK h x1 = Host.gather Cert.ReferenceIdeal.gather_S10000x128_S640000x1_S640000x128_1_0_n_n_0_1_1128 h
      (Cert.ReferenceIdeal.Read.val_main_v6 (F := Ideal) x1) := rfl

/-- max(D, 1) is at least one, so it is not zero, whatever D is. -/
theorem max_one_ne_zero (D : EReal) : max D 1 ≠ 0 := by
  have h1 : (1 : EReal) ≤ max D 1 := le_max_right _ _
  intro e
  rw [e] at h1
  exact absurd h1 (by norm_num)

/-- The kernel's side at (r, q): the product of the messages' sum there with 1 / max(D r, 1). The column [10000, 1]
    cast from the vector reads the vector at r (same row-major position), and its broadcast along the rows reads the
    column at (r, 0). -/
theorem mul_invCol_apply (S : FVec Ideal Cert.KernelIdeal.S10000x128 .f32) (D : FVec Ideal Cert.KernelIdeal.S10000 .f32)
    (r : Fin 10000) (q : Fin 128) :
    mulf S
      (broadcastInDim Cert.KernelIdeal.S10000x128 ![0, 1] Cert.KernelIdeal.Gen.bcast_S10000x1_S10000x128_0_1
        (shapeCast Cert.KernelIdeal.S10000x1
          (Host.divf (broadcastInDim Cert.KernelIdeal.S10000 ![] Cert.KernelIdeal.Gen.bcast_S_S10000 (constant Cert.KernelIdeal.S_ .f32 0x3F800000#32))
            (maximumf D
              (broadcastInDim Cert.KernelIdeal.S10000 ![] Cert.KernelIdeal.Gen.bcast_S_S10000 (constant Cert.KernelIdeal.S_ .f32 0x3F800000#32))))
          Cert.KernelIdeal.Gen.shapeCasts_S10000_S10000x1))
      (ix2 r q)
      = S (ix2 r q) * Ideal.div 1 (max (D (ix1 r)) 1) := by
  rw [mulf_apply]
  congr 1
  rw [broadcastInDim_apply _ Cert.KernelIdeal.Gen.bcast_S10000x1_S10000x128_0_1 _ (ix2 r q) (ix2 r (0 : Fin 1))
    (fun a => match a with
      | ⟨0, _⟩ => by show r.val = if (10000 : Nat) = 1 then 0 else r.val; rw [if_neg (by decide)]
      | ⟨1, _⟩ => by show 0 = if (1 : Nat) = 1 then 0 else q.val; rw [if_pos rfl])]
  rw [shapeCast_apply _ Cert.KernelIdeal.Gen.shapeCasts_S10000_S10000x1 (ix2 r (0 : Fin 1)) (ix1 r)
    (by rw [Shape.rowMajor_val_one, Shape.rowMajor_val_two]; show r.val = r.val * 1 + 0; omega)]
  rw [hostDivf_apply, maximumf_apply, broadcastInDim_scalar_apply, constant_apply, Ideal.ofBits_one_f32]

/-- The reference's side: its divisor at (r, q) is max(deg r, 1), deg the scatter-add of ones. -/
theorem ref_v18_apply (x2 : IVec Cert.ReferenceIdeal.S640000 32) (r : Fin 10000) (q : Fin 128) :
    Cert.ReferenceIdeal.Read.val_main_v18 (F := Ideal) x2 (ix2 r q)
      = max (Cert.ReferenceIdeal.Read.val_main_v14 (F := Ideal) x2 (ix1 r)) 1 := by
  rw [Cert.ReferenceIdeal.Read.val_main_v18_apply, Cert.ReferenceIdeal.Read.val_main_v17_apply,
    Cert.ReferenceIdeal.Read.val_main_v16_apply, Cert.ReferenceIdeal.Read.val_main_v15_apply,
    Cert.ReferenceIdeal.Read.val_main_cst_3_apply, Ideal.maximumf_def, Ideal.ofBits_def, Ideal.ofBits_one_f32]
  have e : Cert.ReferenceIdeal.Read.idx_main_v17 (Cert.ReferenceIdeal.Read.idx_main_v18 (ix2 r q)) = ix1 r := by
    funext a; match a with | ⟨0, _⟩ => rfl
  rw [e]

/-- THE LAW: the kernel's product with the reciprocal-degree column is the reference's quotient. -/
theorem aggK_eq_aggR (h : FVec Ideal Cert.KernelIdeal.S10000x128 .f32) (x1 x2 : IVec Cert.KernelIdeal.S640000 32) :
    aggK h x1 x2 (invDegK x2) = aggR h x1 x2 := by
  funext i
  obtain ⟨r, q, rfl⟩ : ∃ (r : Fin 10000) (q : Fin 128), i = ix2 r q := ⟨i 0, i 1, eq_ix2 i⟩
  unfold aggK aggR invDegK
  refine (mul_invCol_apply _ _ r q).trans ?_
  -- max(deg r, 1) is not zero, so the product with its reciprocal is the quotient by it
  rw [Ideal.mul_one_div (max_one_ne_zero _), hostDivf_apply, ref_v18_apply]
  -- what is left: the scatter-added messages and the degree vector are the same terms in the two programs' spellings
  rfl

/-- The reference's first aggregate is the aggregate of the input table. -/
theorem ref_v19 (x0 : FVec Ideal Cert.ReferenceIdeal.S10000x128 .f32) (x1 x2 : IVec Cert.ReferenceIdeal.S640000 32) :
    Cert.ReferenceIdeal.Read.val_main_v19 (F := Ideal) x0 x1 x2 = aggR x0 x1 x2 := rfl

end Cert.Sage

end
-- ==== Proof.RefLayers.lean ====
/-
  The reference's three dense stages, each as a layer of the stage before it.

  After its first aggregate the reference computes relu(x * W_self1 + agg * W_neigh1 + b1); after its second
  aggregate h * W_self2 + agg' * W_neigh2 + b2; and on the gathered rows concat(h[src], h[dst]) * W_pred + b_pred.
  Read at an entry the first two are the layer's value of their operands with the bias as a row, and the third is too
  once the 256-term contraction over the concatenated columns is split into the 128 terms of the source rows against
  the upper half of W_pred and the 128 terms of the destination rows against its lower half.
-/
import proofs.«139914_j34797825032691_1_alg».proof.Proof.Gen.ReferenceIdeal.Read
import proofs.«139914_j34797825032691_1_alg».proof.Proof.LayerSpec
import Idealize.ShloMosaic.Lib.Pipeline.Value
import Idealize.ShloMosaic.Lib.ValueIdx
import Idealize.ShloMosaic.PureOps.Ideal.Laws
import Mathlib.Algebra.BigOperators.Fin

noncomputable section

namespace Cert.Sage.Ref

open Idealize.ShloMosaic Idealize.ShloMosaic.ValueIdx
open Cert.ReferenceIdeal Cert.ReferenceIdeal.Read

/-- A sum of 256 terms is the sum of its first 128 and of its last 128. -/
theorem sum_halves (f : Fin 256 → EReal) :
    ∑ k : Fin 256, f k
      = ∑ k : Fin 128, f ⟨k.val, by omega⟩ + ∑ k : Fin 128, f ⟨128 + k.val, by omega⟩ :=
  Fin.sum_univ_add (a := 128) (b := 128) f

/-- The first layer: the rectified layer of the input table and its aggregate. -/
theorem layer1 (x0 : FVec Ideal S10000x128 .f32) (x1 x2 : IVec S640000 32) (x3 x4 : FVec Ideal S128x128 .f32)
    (x5 : FVec Ideal S128 .f32) (b : FVec Ideal ⟨2, ![1, 128]⟩ .f32)
    (hb : ∀ q : Fin 128, b (ix2 (0 : Fin 1) q) = x5 (ix1 q)) :
    val_main_v25 (F := Ideal) x0 x1 x2 x3 x4 x5
      = Cert.Sage.relu (Cert.Sage.layer x0 (val_main_v19 (F := Ideal) x0 x1 x2) x3 x4 b) := by
  refine Cert.Sage.ext_ix2 _ _ fun r q => ?_
  rw [Cert.Sage.relu_apply, Cert.Sage.layer_ix2]
  unfold Cert.Sage.layerAt
  rw [val_main_v25_apply, val_main_v24_apply, val_main_v21_apply, val_main_v0_apply, val_main_v20_apply,
    val_main_v23_apply, val_main_v22_apply, val_main_call0_v0_apply, val_main_call0_cst_apply]
  generalize val_main_v19 (F := Ideal) x0 x1 x2 = a
  -- both products read row r of their left operand and column q of their right one
  have l0 : ∀ k : Fin 128, lidx_main_v0 (ix2 r q) k = ix2 r k := fun k => funext fun d => Fin.ext (by
    match d with
    | ⟨0, _⟩ => rfl
    | ⟨1, _⟩ => rfl)
  have r0 : ∀ k : Fin 128, ridx_main_v0 (ix2 r q) k = ix2 k q := fun k => funext fun d => Fin.ext (by
    match d with
    | ⟨0, _⟩ => rfl
    | ⟨1, _⟩ => rfl)
  have l1 : ∀ k : Fin 128, lidx_main_v20 (ix2 r q) k = ix2 r k := fun k => funext fun d => Fin.ext (by
    match d with
    | ⟨0, _⟩ => rfl
    | ⟨1, _⟩ => rfl)
  have r1 : ∀ k : Fin 128, ridx_main_v20 (ix2 r q) k = ix2 k q := fun k => funext fun d => Fin.ext (by
    match d with
    | ⟨0, _⟩ => rfl
    | ⟨1, _⟩ => rfl)
  -- the bias, spread to a row and then down the rows, is read at column q
  have eb : idx_main_v22 (idx_main_v23 (ix2 r q)) = ix1 q := funext fun d => Fin.ext (by
    match d with
    | ⟨0, _⟩ => rfl)
  simp only [l0, r0, l1, r1, eb, Ideal.addf_def, Ideal.maximumf_def, Ideal.ofBits_def, Ideal.ofBits_zero_f32, hb]

/-- The second layer: the layer of the first layer's output and its aggregate. -/
theorem layer2 (x0 : FVec Ideal S10000x128 .f32) (x1 x2 : IVec S640000 32) (x3 x4 : FVec Ideal S128x128 .f32)
    (x5 : FVec Ideal S128 .f32) (x6 x7 : FVec Ideal S128x128 .f32) (x8 : FVec Ideal S128 .f32)
    (b : FVec Ideal ⟨2, ![1, 128]⟩ .f32) (hb : ∀ q : Fin 128, b (ix2 (0 : Fin 1) q) = x8 (ix1 q)) :
    val_main_v50 (F := Ideal) x0 x1 x2 x3 x4 x5 x6 x7 x8
      = Cert.Sage.layer (val_main_v25 (F := Ideal) x0 x1 x2 x3 x4 x5) (val_main_v45 (F := Ideal) x0 x1 x2 x3 x4 x5)
          x6 x7 b := by
  refine Cert.Sage.ext_ix2 _ _ fun r q => ?_
  rw [Cert.Sage.layer_ix2]
  unfold Cert.Sage.layerAt
  rw [val_main_v50_apply, val_main_v47_apply, val_main_v26_apply, val_main_v46_apply,
    val_main_v49_apply, val_main_v48_apply]
  generalize val_main_v25 (F := Ideal) x0 x1 x2 x3 x4 x5 = h
  generalize val_main_v45 (F := Ideal) x0 x1 x2 x3 x4 x5 = a
  -- both products read row r of their left operand and column q of their right one
  have l0 : ∀ k : Fin 128, lidx_main_v26 (ix2 r q) k = ix2 r k := fun k => funext fun d => Fin.ext (by
    match d with
    | ⟨0, _⟩ => rfl
    | ⟨1, _⟩ => rfl)
  have r0 : ∀ k : Fin 128, ridx_main_v26 (ix2 r q) k = ix2 k q := fun k => funext fun d => Fin.ext (by
    match d with
    | ⟨0, _⟩ => rfl
    | ⟨1, _⟩ => rfl)
  have l1 : ∀ k : Fin 128, lidx_main_v46 (ix2 r q) k = ix2 r k := fun k => funext fun d => Fin.ext (by
    match d with
    | ⟨0, _⟩ => rfl
    | ⟨1, _⟩ => rfl)
  have r1 : ∀ k : Fin 128, ridx_main_v46 (ix2 r q) k = ix2 k q := fun k => funext fun d => Fin.ext (by
    match d with
    | ⟨0, _⟩ => rfl
    | ⟨1, _⟩ => rfl)
  -- the bias, spread to a row and then down the rows, is read at column q
  have eb : idx_main_v48 (idx_main_v49 (ix2 r q)) = ix1 q := funext fun d => Fin.ext (by
    match d with
    | ⟨0, _⟩ => rfl)
  simp only [l0, r0, l1, r1, eb, Ideal.addf_def, hb]

/-- The scores: the layer of the gathered source rows and destination rows against the two halves of W_pred. -/
theorem score (x0 : FVec Ideal S10000x128 .f32) (x1 x2 : IVec S640000 32) (x3 x4 : FVec Ideal S128x128 .f32)
    (x5 : FVec Ideal S128 .f32) (x6 x7 : FVec Ideal S128x128 .f32) (x8 : FVec Ideal S128 .f32)
    (x9 : FVec Ideal S256x2 .f32) (x10 : FVec Ideal S2 .f32)
    (w1 w2 : FVec Ideal ⟨2, ![128, 2]⟩ .f32) (b : FVec Ideal ⟨2, ![1, 2]⟩ .f32)
    (hw1 : ∀ (k : Fin 128) (q : Fin 2), w1 (ix2 k q) = x9 (ix2 (⟨k.val, by omega⟩ : Fin 256) q))
    (hw2 : ∀ (k : Fin 128) (q : Fin 2), w2 (ix2 k q) = x9 (ix2 (⟨128 + k.val, by omega⟩ : Fin 256) q))
    (hb : ∀ q : Fin 2, b (ix2 (0 : Fin 1) q) = x10 (ix1 q)) :
    val_main_v69 (F := Ideal) x0 x1 x2 x3 x4 x5 x6 x7 x8 x9 x10
      = Cert.Sage.layer (val_main_v57 (F := Ideal) x0 x1 x2 x3 x4 x5 x6 x7 x8)
          (val_main_v64 (F := Ideal) x0 x1 x2 x3 x4 x5 x6 x7 x8) w1 w2 b := by
  refine Cert.Sage.ext_ix2 _ _ fun r q => ?_
  rw [Cert.Sage.layer_ix2]
  unfold Cert.Sage.layerAt
  rw [val_main_v69_apply, val_main_v66_apply, val_main_v68_apply, val_main_v67_apply, sum_halves]
  -- the concatenated table read in its left half is the source rows, in its right half the destination rows
  have cl : ∀ k : Fin 128, val_main_v65 (F := Ideal) x0 x1 x2 x3 x4 x5 x6 x7 x8
      (lidx_main_v66 (ix2 r q) ⟨k.val, by omega⟩)
      = val_main_v57 (F := Ideal) x0 x1 x2 x3 x4 x5 x6 x7 x8 (ix2 r k) := fun k => by
    unfold val_main_v65
    generalize val_main_v57 (F := Ideal) x0 x1 x2 x3 x4 x5 x6 x7 x8 = y1
    generalize val_main_v64 (F := Ideal) x0 x1 x2 x3 x4 x5 x6 x7 x8 = y2
    exact concatenate_pair_apply_left (t := S640000x256) (s₁ := S640000x128) (s₂ := S640000x128) (1 : Fin 2) y1 y2
      Gen.concatenates_S640000x128_S640000x128_S640000x256_d1 (lidx_main_v66 (ix2 r q) ⟨k.val, by omega⟩) rfl
      (ix2 r k) (fun d => by
      match d with
      | ⟨0, _⟩ => rfl
      | ⟨1, _⟩ => rfl)
  have cr : ∀ k : Fin 128, val_main_v65 (F := Ideal) x0 x1 x2 x3 x4 x5 x6 x7 x8
      (lidx_main_v66 (ix2 r q) ⟨128 + k.val, by omega⟩)
      = val_main_v64 (F := Ideal) x0 x1 x2 x3 x4 x5 x6 x7 x8 (ix2 r k) := fun k => by
    unfold val_main_v65
    generalize val_main_v57 (F := Ideal) x0 x1 x2 x3 x4 x5 x6 x7 x8 = y1
    generalize val_main_v64 (F := Ideal) x0 x1 x2 x3 x4 x5 x6 x7 x8 = y2
    exact concatenate_pair_apply_right (t := S640000x256) (s₁ := S640000x128) (s₂ := S640000x128) (1 : Fin 2) y1 y2
      Gen.concatenates_S640000x128_S640000x128_S640000x256_d1 (lidx_main_v66 (ix2 r q) ⟨128 + k.val, by omega⟩) rfl rfl
      (ix2 r k) (fun d hd => by
      match d with
      | ⟨0, _⟩ => rfl
      | ⟨1, _⟩ => exact absurd rfl hd)
      (by show k.val + 128 = 128 + k.val; omega)
  -- against them stand rows k and 128 + k of the predictor's matrix, at column q
  have rl : ∀ k : Fin 128, ridx_main_v66 (ix2 r q) ⟨k.val, by omega⟩ = ix2 (⟨k.val, by omega⟩ : Fin 256) q :=
    fun k => funext fun d => Fin.ext (by
      match d with
      | ⟨0, _⟩ => rfl
      | ⟨1, _⟩ => rfl)
  have rr : ∀ k : Fin 128,
      ridx_main_v66 (ix2 r q) ⟨128 + k.val, by omega⟩ = ix2 (⟨128 + k.val, by omega⟩ : Fin 256) q :=
    fun k => funext fun d => Fin.ext (by
      match d with
      | ⟨0, _⟩ => rfl
      | ⟨1, _⟩ => rfl)
  -- the bias, spread to a row and then down the rows, is read at column q
  have eb : idx_main_v67 (idx_main_v68 (ix2 r q)) = ix1 q := funext fun d => Fin.ext (by
    match d with
    | ⟨0, _⟩ => rfl)
  simp only [cl, cr, rl, rr, eb, hw1, hw2, hb, Ideal.addf_def]

end Cert.Sage.Ref

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.KernelValue.lean ====
/-
  The kernel program's result as the reference's stages.

  The program is three regions among three stretches of host operations. Each stretch is read back as the printed
  operations' term of what it found; each region's result array is the layer (rectified, for the first) of the arrays
  it found. The mean aggregate in the kernel program's spelling is the reference's, the bias reshaped to a row reads
  as the bias, and the two slices of the predictor's matrix read as its upper and lower half; so the first region
  leaves the reference's first-layer output, the second its second-layer output, and the third its scores, each as a
  function of the argument arrays. The gather and the scatter-add are carried through unopened.
-/
import proofs.«139914_j34797825032691_1_alg».proof.Proof.Gen.KernelIdeal.Frame
import proofs.«139914_j34797825032691_1_alg».proof.Proof.Region0
import proofs.«139914_j34797825032691_1_alg».proof.Proof.Region1
import proofs.«139914_j34797825032691_1_alg».proof.Proof.Region2
import proofs.«139914_j34797825032691_1_alg».proof.Proof.AggLaw
import proofs.«139914_j34797825032691_1_alg».proof.Proof.RefLayers
import proofs.«139914_j34797825032691_1_alg».proof.Proof.LibLayout
import Idealize.ShloMosaic.Lib.StableHlo.Run
import Idealize.ShloMosaic.Lib.Pipeline.Value

set_option maxRecDepth 16384

noncomputable section

namespace Cert.KernelIdeal.KernelValue

open Cert.KernelIdeal Cert.KernelIdeal.Gen Cert.KernelIdeal.RegionValue
open Idealize.ShloMosaic Idealize.ShloMosaic.TcCoe Idealize.ShloMosaic.ValueIdx Idealize.SL.Sem
open Idealize.ShloMosaic.StableHlo
open Cert.ReferenceIdeal.Read (val_main_v19 val_main_v25 val_main_v45 val_main_v50 val_main_v57 val_main_v64 val_main_v69)

variable (m : (ℓ : Loc nD τ sig) → Buf (Elt Ideal) ℓ) (ρ : Dev nD → PrngReg)

/-! ## The argument arrays, at their literal types -/

abbrev x0 (c : Dev nD) : Vec Ideal S10000x128 .f32 := m ((c : Thread nD τ).loc main_arg0)
abbrev x1 (c : Dev nD) : IVec S640000 32 := m ((c : Thread nD τ).loc main_arg1)
abbrev x2 (c : Dev nD) : IVec S640000 32 := m ((c : Thread nD τ).loc main_arg2)
abbrev x3 (c : Dev nD) : Vec Ideal S128x128 .f32 := m ((c : Thread nD τ).loc main_arg3)
abbrev x4 (c : Dev nD) : Vec Ideal S128x128 .f32 := m ((c : Thread nD τ).loc main_arg4)
abbrev x5 (c : Dev nD) : Vec Ideal S128 .f32 := m ((c : Thread nD τ).loc main_arg5)
abbrev x6 (c : Dev nD) : Vec Ideal S128x128 .f32 := m ((c : Thread nD τ).loc main_arg6)
abbrev x7 (c : Dev nD) : Vec Ideal S128x128 .f32 := m ((c : Thread nD τ).loc main_arg7)
abbrev x8 (c : Dev nD) : Vec Ideal S128 .f32 := m ((c : Thread nD τ).loc main_arg8)
abbrev x9 (c : Dev nD) : Vec Ideal S256x2 .f32 := m ((c : Thread nD τ).loc main_arg9)
abbrev x10 (c : Dev nD) : Vec Ideal S2 .f32 := m ((c : Thread nD τ).loc main_arg10)

/-! ## The first stretch of host operations, read back -/

set_option maxHeartbeats 4000000 in
theorem V1_arg0 (c : Dev nD) : V1 m ρ c main_arg0 = x0 m c := by
  show StableHlo.after hostOps0 (W0 m ρ c) (Proc.devRef .tc main_arg0) = _
  after_results_simp <;> rfl
set_option maxHeartbeats 4000000 in
theorem V1_arg3 (c : Dev nD) : V1 m ρ c main_arg3 = x3 m c := by
  show StableHlo.after hostOps0 (W0 m ρ c) (Proc.devRef .tc main_arg3) = _
  after_results_simp <;> rfl
set_option maxHeartbeats 4000000 in
theorem V1_arg4 (c : Dev nD) : V1 m ρ c main_arg4 = x4 m c := by
  show StableHlo.after hostOps0 (W0 m ρ c) (Proc.devRef .tc main_arg4) = _
  after_results_simp <;> rfl
set_option maxHeartbeats 4000000 in
/-- The aggregate of the input table, in the kernel program's spelling. -/
theorem V1_v20 (c : Dev nD) :
    V1 m ρ c main_v20 = Cert.Sage.aggK (x0 m c) (x1 m c) (x2 m c) (Cert.Sage.invDegK (x2 m c)) := by
  show StableHlo.after hostOps0 (W0 m ρ c) (Proc.devRef .tc main_v20) = _
  after_results_simp <;> rfl
set_option maxHeartbeats 4000000 in
/-- The first bias, reshaped to a row. -/
theorem V1_v21 (c : Dev nD) : V1 m ρ c main_v21 = shapeCast S1x128 (x5 m c) shapeCasts_S128_S1x128 := by
  show StableHlo.after hostOps0 (W0 m ρ c) (Proc.devRef .tc main_v21) = _
  after_results_simp <;> rfl

/-- A vector reshaped to a row reads, at (0, q), as the vector at q. -/
theorem row128 (v : Vec Ideal S128 .f32) (q : Fin 128) :
    shapeCast S1x128 v shapeCasts_S128_S1x128 (ix2 (0 : Fin 1) q) = v (ix1 q) :=
  Cert.Lib.Layout.rowCast_apply v shapeCasts_S128_S1x128 0 q

/-! ## The first region leaves the reference's first-layer output -/

theorem region0_value (c : Dev nD) :
    (dat0 (V1 m ρ) c).arrAt 5 cfg0.N
      = val_main_v25 (F := Ideal) (x0 m c) (x1 m c) (x2 m c) (x3 m c) (x4 m c) (x5 m c) := by
  rw [final0]
  show Cert.Sage.relu (Cert.Sage.layer (V1 m ρ c main_arg0) (V1 m ρ c main_v20) (V1 m ρ c main_arg3) (V1 m ρ c main_arg4)
    (V1 m ρ c main_v21)) = _
  rw [V1_arg0, V1_v20, V1_arg3, V1_arg4, V1_v21, Cert.Sage.aggK_eq_aggR, ← Cert.Sage.ref_v19]
  exact (Cert.Sage.Ref.layer1 (x0 m c) (x1 m c) (x2 m c) (x3 m c) (x4 m c) (x5 m c) _ (row128 (x5 m c))).symm

/-! ## Between the first and the second region -/

set_option maxHeartbeats 4000000 in
theorem W1_arg1 (c : Dev nD) : W1 m ρ c (Proc.devRef .tc main_arg1) = x1 m c := by
  show StableHlo.after hostOps0 (W0 m ρ c) (Proc.devRef .tc main_arg1) = _
  after_results_simp <;> rfl
set_option maxHeartbeats 4000000 in
theorem W1_arg2 (c : Dev nD) : W1 m ρ c (Proc.devRef .tc main_arg2) = x2 m c := by
  show StableHlo.after hostOps0 (W0 m ρ c) (Proc.devRef .tc main_arg2) = _
  after_results_simp <;> rfl
set_option maxHeartbeats 4000000 in
theorem W1_arg6 (c : Dev nD) : W1 m ρ c (Proc.devRef .tc main_arg6) = x6 m c := by
  show StableHlo.after hostOps0 (W0 m ρ c) (Proc.devRef .tc main_arg6) = _
  after_results_simp <;> rfl
set_option maxHeartbeats 4000000 in
theorem W1_arg7 (c : Dev nD) : W1 m ρ c (Proc.devRef .tc main_arg7) = x7 m c := by
  show StableHlo.after hostOps0 (W0 m ρ c) (Proc.devRef .tc main_arg7) = _
  after_results_simp <;> rfl
set_option maxHeartbeats 4000000 in
theorem W1_arg8 (c : Dev nD) : W1 m ρ c (Proc.devRef .tc main_arg8) = x8 m c := by
  show StableHlo.after hostOps0 (W0 m ρ c) (Proc.devRef .tc main_arg8) = _
  after_results_simp <;> rfl
set_option maxHeartbeats 4000000 in
theorem W1_arg9 (c : Dev nD) : W1 m ρ c (Proc.devRef .tc main_arg9) = x9 m c := by
  show StableHlo.after hostOps0 (W0 m ρ c) (Proc.devRef .tc main_arg9) = _
  after_results_simp <;> rfl
set_option maxHeartbeats 4000000 in
theorem W1_arg10 (c : Dev nD) : W1 m ρ c (Proc.devRef .tc main_arg10) = x10 m c := by
  show StableHlo.after hostOps0 (W0 m ρ c) (Proc.devRef .tc main_arg10) = _
  after_results_simp <;> rfl
set_option maxHeartbeats 4000000 in
/-- The reciprocal-degree column, computed once in the first stretch. -/
theorem W1_v8 (c : Dev nD) : W1 m ρ c (Proc.devRef .tc main_v8) = Cert.Sage.invDegK (x2 m c) := by
  show StableHlo.after hostOps0 (W0 m ρ c) (Proc.devRef .tc main_v8) = _
  after_results_simp <;> rfl

/-- The first region touches none of these buffers. -/
theorem W2_arg1 (c : Dev nD) : W2 m ρ c (Proc.devRef .tc main_arg1) = x1 m c :=
  (W2_of_ne m ρ c main_arg1 (by decide)).trans (W1_arg1 m ρ c)
theorem W2_arg2 (c : Dev nD) : W2 m ρ c (Proc.devRef .tc main_arg2) = x2 m c :=
  (W2_of_ne m ρ c main_arg2 (by decide)).trans (W1_arg2 m ρ c)
theorem W2_arg6 (c : Dev nD) : W2 m ρ c (Proc.devRef .tc main_arg6) = x6 m c :=
  (W2_of_ne m ρ c main_arg6 (by decide)).trans (W1_arg6 m ρ c)
theorem W2_arg7 (c : Dev nD) : W2 m ρ c (Proc.devRef .tc main_arg7) = x7 m c :=
  (W2_of_ne m ρ c main_arg7 (by decide)).trans (W1_arg7 m ρ c)
theorem W2_arg8 (c : Dev nD) : W2 m ρ c (Proc.devRef .tc main_arg8) = x8 m c :=
  (W2_of_ne m ρ c main_arg8 (by decide)).trans (W1_arg8 m ρ c)
theorem W2_arg9 (c : Dev nD) : W2 m ρ c (Proc.devRef .tc main_arg9) = x9 m c :=
  (W2_of_ne m ρ c main_arg9 (by decide)).trans (W1_arg9 m ρ c)
theorem W2_arg10 (c : Dev nD) : W2 m ρ c (Proc.devRef .tc main_arg10) = x10 m c :=
  (W2_of_ne m ρ c main_arg10 (by decide)).trans (W1_arg10 m ρ c)
theorem W2_v8 (c : Dev nD) : W2 m ρ c (Proc.devRef .tc main_v8) = Cert.Sage.invDegK (x2 m c) :=
  (W2_of_ne m ρ c main_v8 (by decide)).trans (W1_v8 m ρ c)
/-- The first region's result array: the reference's first-layer output. -/
theorem W2_v22 (c : Dev nD) : W2 m ρ c (Proc.devRef .tc main_v22)
    = val_main_v25 (F := Ideal) (x0 m c) (x1 m c) (x2 m c) (x3 m c) (x4 m c) (x5 m c) :=
  (W2_arr m ρ c 5).trans (region0_value m ρ c)

/-! ## The second stretch of host operations, read back -/

set_option maxHeartbeats 4000000 in
theorem V3_v22 (c : Dev nD) : V3 m ρ c main_v22
    = val_main_v25 (F := Ideal) (x0 m c) (x1 m c) (x2 m c) (x3 m c) (x4 m c) (x5 m c) := by
  show StableHlo.after hostOps1 (W2 m ρ c) (Proc.devRef .tc main_v22) = _
  after_results_simp
  exact W2_v22 m ρ c
set_option maxHeartbeats 4000000 in
theorem V3_arg6 (c : Dev nD) : V3 m ρ c main_arg6 = x6 m c := by
  show StableHlo.after hostOps1 (W2 m ρ c) (Proc.devRef .tc main_arg6) = _
  after_results_simp
  exact W2_arg6 m ρ c
set_option maxHeartbeats 4000000 in
theorem V3_arg7 (c : Dev nD) : V3 m ρ c main_arg7 = x7 m c := by
  show StableHlo.after hostOps1 (W2 m ρ c) (Proc.devRef .tc main_arg7) = _
  after_results_simp
  exact W2_arg7 m ρ c
set_option maxHeartbeats 4000000 in
/-- The aggregate of the first layer's output, in the kernel program's spelling, with the reciprocal-degree column of
    the first stretch. -/
theorem V3_v34 (c : Dev nD) : V3 m ρ c main_v34
    = Cert.Sage.aggK (val_main_v25 (F := Ideal) (x0 m c) (x1 m c) (x2 m c) (x3 m c) (x4 m c) (x5 m c)) (x1 m c) (x2 m c)
        (Cert.Sage.invDegK (x2 m c)) := by
  show StableHlo.after hostOps1 (W2 m ρ c) (Proc.devRef .tc main_v34) = _
  after_results_simp
  rw [W2_v22, W2_arg1, W2_arg2, W2_v8]
  rfl
set_option maxHeartbeats 4000000 in
/-- The second bias, reshaped to a row. -/
theorem V3_v35 (c : Dev nD) : V3 m ρ c main_v35 = shapeCast S1x128 (x8 m c) shapeCasts_S128_S1x128 := by
  show StableHlo.after hostOps1 (W2 m ρ c) (Proc.devRef .tc main_v35) = _
  after_results_simp
  rw [W2_arg8]
  rfl

/-! ## The second region leaves the reference's second-layer output -/

/-- The reference's second aggregate is the aggregate of its first-layer output. -/
theorem ref_v45 (a0 : FVec Ideal Cert.ReferenceIdeal.S10000x128 .f32) (a1 a2 : IVec Cert.ReferenceIdeal.S640000 32)
    (a3 a4 : FVec Ideal Cert.ReferenceIdeal.S128x128 .f32) (a5 : FVec Ideal Cert.ReferenceIdeal.S128 .f32) :
    val_main_v45 (F := Ideal) a0 a1 a2 a3 a4 a5 = Cert.Sage.aggR (val_main_v25 (F := Ideal) a0 a1 a2 a3 a4 a5) a1 a2 := rfl

theorem region1_value (c : Dev nD) :
    (dat1 (V3 m ρ) c).arrAt 5 cfg1.N
      = val_main_v50 (F := Ideal) (x0 m c) (x1 m c) (x2 m c) (x3 m c) (x4 m c) (x5 m c) (x6 m c) (x7 m c) (x8 m c) := by
  rw [final1]
  show Cert.Sage.layer (V3 m ρ c main_v22) (V3 m ρ c main_v34) (V3 m ρ c main_arg6) (V3 m ρ c main_arg7)
    (V3 m ρ c main_v35) = _
  rw [V3_v22, V3_v34, V3_arg6, V3_arg7, V3_v35, Cert.Sage.aggK_eq_aggR, ← ref_v45]
  exact (Cert.Sage.Ref.layer2 (x0 m c) (x1 m c) (x2 m c) (x3 m c) (x4 m c) (x5 m c) (x6 m c) (x7 m c) (x8 m c) _
    (row128 (x8 m c))).symm

/-! ## Between the second and the third region -/

set_option maxHeartbeats 4000000 in
theorem W3_arg1 (c : Dev nD) : W3 m ρ c (Proc.devRef .tc main_arg1) = x1 m c := by
  show StableHlo.after hostOps1 (W2 m ρ c) (Proc.devRef .tc main_arg1) = _
  after_results_simp
  exact W2_arg1 m ρ c
set_option maxHeartbeats 4000000 in
theorem W3_arg2 (c : Dev nD) : W3 m ρ c (Proc.devRef .tc main_arg2) = x2 m c := by
  show StableHlo.after hostOps1 (W2 m ρ c) (Proc.devRef .tc main_arg2) = _
  after_results_simp
  exact W2_arg2 m ρ c
set_option maxHeartbeats 4000000 in
theorem W3_arg9 (c : Dev nD) : W3 m ρ c (Proc.devRef .tc main_arg9) = x9 m c := by
  show StableHlo.after hostOps1 (W2 m ρ c) (Proc.devRef .tc main_arg9) = _
  after_results_simp
  exact W2_arg9 m ρ c
set_option maxHeartbeats 4000000 in
theorem W3_arg10 (c : Dev nD) : W3 m ρ c (Proc.devRef .tc main_arg10) = x10 m c := by
  show StableHlo.after hostOps1 (W2 m ρ c) (Proc.devRef .tc main_arg10) = _
  after_results_simp
  exact W2_arg10 m ρ c

/-- The second region touches none of these buffers. -/
theorem W4_arg1 (c : Dev nD) : W4 m ρ c (Proc.devRef .tc main_arg1) = x1 m c :=
  (W4_of_ne m ρ c main_arg1 (by decide)).trans (W3_arg1 m ρ c)
theorem W4_arg2 (c : Dev nD) : W4 m ρ c (Proc.devRef .tc main_arg2) = x2 m c :=
  (W4_of_ne m ρ c main_arg2 (by decide)).trans (W3_arg2 m ρ c)
theorem W4_arg9 (c : Dev nD) : W4 m ρ c (Proc.devRef .tc main_arg9) = x9 m c :=
  (W4_of_ne m ρ c main_arg9 (by decide)).trans (W3_arg9 m ρ c)
theorem W4_arg10 (c : Dev nD) : W4 m ρ c (Proc.devRef .tc main_arg10) = x10 m c :=
  (W4_of_ne m ρ c main_arg10 (by decide)).trans (W3_arg10 m ρ c)
/-- The second region's result array: the reference's second-layer output. -/
theorem W4_v36 (c : Dev nD) : W4 m ρ c (Proc.devRef .tc main_v36)
    = val_main_v50 (F := Ideal) (x0 m c) (x1 m c) (x2 m c) (x3 m c) (x4 m c) (x5 m c) (x6 m c) (x7 m c) (x8 m c) :=
  (W4_arr m ρ c 5).trans (region1_value m ρ c)

/-! ## The third stretch of host operations, read back -/

set_option maxHeartbeats 4000000 in
/-- The second-layer output gathered at the source indices. -/
theorem V5_v43 (c : Dev nD) : V5 m ρ c main_v43
    = Cert.Sage.gatherK (val_main_v50 (F := Ideal) (x0 m c) (x1 m c) (x2 m c) (x3 m c) (x4 m c) (x5 m c) (x6 m c) (x7 m c) (x8 m c))
        (x1 m c) := by
  show StableHlo.after hostOps2 (W4 m ρ c) (Proc.devRef .tc main_v43) = _
  after_results_simp
  rw [W4_v36, W4_arg1]
  rfl
set_option maxHeartbeats 4000000 in
/-- The second-layer output gathered at the destination indices. -/
theorem V5_v50 (c : Dev nD) : V5 m ρ c main_v50
    = Cert.Sage.gatherK (val_main_v50 (F := Ideal) (x0 m c) (x1 m c) (x2 m c) (x3 m c) (x4 m c) (x5 m c) (x6 m c) (x7 m c) (x8 m c))
        (x2 m c) := by
  show StableHlo.after hostOps2 (W4 m ρ c) (Proc.devRef .tc main_v50) = _
  after_results_simp
  rw [W4_v36, W4_arg2]
  rfl
set_option maxHeartbeats 4000000 in
/-- The upper half of the predictor's matrix. -/
theorem V5_v51 (c : Dev nD) : V5 m ρ c main_v51
    = extractStridedSlice S128x2 ![0, 0] (x9 m c) slices_S256x2_S128x2_0_0 := by
  show StableHlo.after hostOps2 (W4 m ρ c) (Proc.devRef .tc main_v51) = _
  after_results_simp
  rw [W4_arg9]
set_option maxHeartbeats 4000000 in
/-- The lower half of the predictor's matrix. -/
theorem V5_v52 (c : Dev nD) : V5 m ρ c main_v52
    = extractStridedSlice S128x2 ![128, 0] (x9 m c) slices_S256x2_S128x2_128_0 := by
  show StableHlo.after hostOps2 (W4 m ρ c) (Proc.devRef .tc main_v52) = _
  after_results_simp
  rw [W4_arg9]
set_option maxHeartbeats 4000000 in
/-- The predictor's bias, reshaped to a row. -/
theorem V5_v53 (c : Dev nD) : V5 m ρ c main_v53 = shapeCast S1x2 (x10 m c) shapeCasts_S2_S1x2 := by
  show StableHlo.after hostOps2 (W4 m ρ c) (Proc.devRef .tc main_v53) = _
  after_results_simp
  rw [W4_arg10]
  rfl

/-- A vector of two reshaped to a row reads, at (0, q), as the vector at q. -/
theorem row2 (v : Vec Ideal S2 .f32) (q : Fin 2) :
    shapeCast S1x2 v shapeCasts_S2_S1x2 (ix2 (0 : Fin 1) q) = v (ix1 q) :=
  Cert.Lib.Layout.rowCast_apply v shapeCasts_S2_S1x2 0 q

/-- The upper half of a [256, 2] matrix at (k, q) is the matrix at (k, q). -/
theorem upper_apply (w : Vec Ideal S256x2 .f32) (k : Fin 128) (q : Fin 2) :
    extractStridedSlice S128x2 ![0, 0] w slices_S256x2_S128x2_0_0 (ix2 k q) = w (ix2 (⟨k.val, by omega⟩ : Fin 256) q) :=
  extractStridedSlice_apply ![0, 0] w slices_S256x2_S128x2_0_0 (ix2 k q) (ix2 (⟨k.val, by omega⟩ : Fin 256) q)
    (fun a => match a with
      | ⟨0, _⟩ => by show k.val = 0 + k.val; omega
      | ⟨1, _⟩ => by show q.val = 0 + q.val; omega)

/-- The lower half of a [256, 2] matrix at (k, q) is the matrix at (128 + k, q). -/
theorem lower_apply (w : Vec Ideal S256x2 .f32) (k : Fin 128) (q : Fin 2) :
    extractStridedSlice S128x2 ![128, 0] w slices_S256x2_S128x2_128_0 (ix2 k q)
      = w (ix2 (⟨128 + k.val, by omega⟩ : Fin 256) q) :=
  extractStridedSlice_apply ![128, 0] w slices_S256x2_S128x2_128_0 (ix2 k q) (ix2 (⟨128 + k.val, by omega⟩ : Fin 256) q)
    (fun a => match a with
      | ⟨0, _⟩ => by show 128 + k.val = 128 + k.val; rfl
      | ⟨1, _⟩ => by show q.val = 0 + q.val; omega)

/-! ## The third region leaves the reference's scores -/

/-- The reference's two gathers are gathers of its second-layer output. -/
theorem ref_v57 (a0 : FVec Ideal Cert.ReferenceIdeal.S10000x128 .f32) (a1 a2 : IVec Cert.ReferenceIdeal.S640000 32)
    (a3 a4 : FVec Ideal Cert.ReferenceIdeal.S128x128 .f32) (a5 : FVec Ideal Cert.ReferenceIdeal.S128 .f32)
    (a6 a7 : FVec Ideal Cert.ReferenceIdeal.S128x128 .f32) (a8 : FVec Ideal Cert.ReferenceIdeal.S128 .f32) :
    val_main_v57 (F := Ideal) a0 a1 a2 a3 a4 a5 a6 a7 a8
      = Cert.Sage.gatherK (val_main_v50 (F := Ideal) a0 a1 a2 a3 a4 a5 a6 a7 a8) a1 := rfl
theorem ref_v64 (a0 : FVec Ideal Cert.ReferenceIdeal.S10000x128 .f32) (a1 a2 : IVec Cert.ReferenceIdeal.S640000 32)
    (a3 a4 : FVec Ideal Cert.ReferenceIdeal.S128x128 .f32) (a5 : FVec Ideal Cert.ReferenceIdeal.S128 .f32)
    (a6 a7 : FVec Ideal Cert.ReferenceIdeal.S128x128 .f32) (a8 : FVec Ideal Cert.ReferenceIdeal.S128 .f32) :
    val_main_v64 (F := Ideal) a0 a1 a2 a3 a4 a5 a6 a7 a8
      = Cert.Sage.gatherK (val_main_v50 (F := Ideal) a0 a1 a2 a3 a4 a5 a6 a7 a8) a2 := rfl

theorem region2_value (c : Dev nD) :
    (dat2 (V5 m ρ) c).arrAt 5 cfg2.N
      = val_main_v69 (F := Ideal) (x0 m c) (x1 m c) (x2 m c) (x3 m c) (x4 m c) (x5 m c) (x6 m c) (x7 m c) (x8 m c)
          (x9 m c) (x10 m c) := by
  rw [final2]
  show Cert.Sage.layer (V5 m ρ c main_v43) (V5 m ρ c main_v50) (V5 m ρ c main_v51) (V5 m ρ c main_v52)
    (V5 m ρ c main_v53) = _
  rw [V5_v43, V5_v50, V5_v51, V5_v52, V5_v53, ← ref_v57, ← ref_v64]
  exact (Cert.Sage.Ref.score (x0 m c) (x1 m c) (x2 m c) (x3 m c) (x4 m c) (x5 m c) (x6 m c) (x7 m c) (x8 m c)
    (x9 m c) (x10 m c) _ _ _ (upper_apply (x9 m c)) (lower_apply (x9 m c)) (row2 (x10 m c))).symm

/-! ## The result buffer at the last boundary -/

/-- THE KERNEL PROGRAM'S RESULT: the reference's score stage of the argument arrays. -/
theorem result_value (c : Dev nD) :
    W6 m ρ c (Proc.devRef .tc main_v54)
      = val_main_v69 (F := Ideal) (x0 m c) (x1 m c) (x2 m c) (x3 m c) (x4 m c) (x5 m c) (x6 m c) (x7 m c) (x8 m c)
          (x9 m c) (x10 m c) :=
  (W6_arr m ρ c 5).trans (region2_value m ρ c)

end Cert.KernelIdeal.KernelValue

end
-- ==== Proof.lean ====
/-
  A two-layer mean-aggregator graph network with an edge scorer, against its plain reference, over the extended reals.

  Both programs compute, from a node table x [10000, 128], source and destination indices of 640000 edges, and the
  weights,
      agg(h)  = (scatter-add over dst of h[src]) / max(deg, 1),   deg = scatter-add over dst of ones,
      h1      = max(x W_self1 + agg(x) W_neigh1 + b1, 0),
      h2      = h1 W_self2 + agg(h1) W_neigh2 + b2,
      score   = concat(h2[src], h2[dst]) W_pred + b_pred.
  The kernel's program differs in three places. It multiplies by the reciprocal 1 / max(deg, 1) computed once where
  the reference divides by max(deg, 1): on the extended reals x * (1 / M) = x / M whenever M is not zero, and
  max(deg, 1) is at least one whatever deg is. It computes each dense layer block of rows by block of rows, with
  operands narrowed to bf16 (the identity on the extended reals) and products into zero accumulators: entry by entry
  the same sums. And it scores an edge as h2[src] times the upper half of W_pred plus h2[dst] times the lower half,
  where the reference multiplies the concatenated row by the whole of W_pred: a 256-term sum split into two 128-term
  sums. The gather and the scatter-add are the same operations on the same operands in both programs and are carried
  through as they stand, so no range of the indices and no finiteness of the inputs is used.

  The kernel program's result array is read off its run as the reference's own stage function of the argument arrays
  (Proof/KernelValue.lean over the regions' arrays, Proof/Region0.lean, Region1.lean, Region2.lean, and the entry
  lemmas of Proof/BodyEntry.lean; the aggregate's law is Proof/AggLaw.lean and the reference's dense stages are
  Proof/RefLayers.lean); the reference's result is its generated run. No ledger entry: nothing to preserve.
-/
import proofs.«139914_j34797825032691_1_alg».proof.Defs
import proofs.«139914_j34797825032691_1_alg».proof.Proof.Gen.Kernel
import proofs.«139914_j34797825032691_1_alg».proof.Proof.Gen.Kernel.Frame
import proofs.«139914_j34797825032691_1_alg».proof.Proof.Gen.KernelIdeal
import proofs.«139914_j34797825032691_1_alg».proof.Proof.Gen.KernelIdeal.Frame
import proofs.«139914_j34797825032691_1_alg».proof.Proof.Gen.ReferenceIdeal
import proofs.«139914_j34797825032691_1_alg».proof.Proof.Gen.ReferenceIdeal.Run
import proofs.«139914_j34797825032691_1_alg».proof.Proof.Gen.ReferenceIdeal.Read
import proofs.«139914_j34797825032691_1_alg».proof.Proof.Gen.Pre_finite_inputs
import proofs.«139914_j34797825032691_1_alg».proof.Proof.ValueRun
import proofs.«139914_j34797825032691_1_alg».proof.Proof.KernelValue
import Idealize.ShloMosaic.Adequacy
import Idealize.ShloMosaic.Init

noncomputable section

namespace Cert.Proof

open Idealize.ShloMosaic Idealize.SL.Sem

/-- The kernel's program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's score stage of those arguments:
    the kernel's program by its run read region by region, the reference by its own run. -/
theorem algebraic : Cert.algebraic_KernelIdeal_ReferenceIdeal := by
  intro m ρ m' ρ' _ hagree
  refine ⟨fun c => Cert.ReferenceIdeal.Read.val_main_v69 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KernelValue.result_value m ρ c), (h c).2⟩)
      (Cert.KernelIdeal.ValueRun.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v69_eq, h0, h1, h2, h3, h4, h5, h6, h7, h8, h9, h10]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
